-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S256x128 : Shape := ⟨2, ![256, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 65
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .i1⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The mathematics both programs compute, stated once over the kernel program's shapes.

  One graph-convolution layer on 100000 nodes: the node features are mapped linearly, `h = x · Wᵀ` (`lin`); every edge
  (and one self-loop per node) carries its source row of `h`, scaled by the symmetric degree normalisation, to its target,
  where the rows are summed (`glue`: the degree count, its reciprocal square root where positive, the two gathers, the
  scatter-sum); and the bias and the channel-wise leaky rectifier `z ↦ z` if `z > 0` else `a · z` close it (`act`).
  The aggregation is the SAME chain of host operations in both programs, so it is carried as one function of `h` and the
  edge list and never opened.
-/
import proofs.«148932_j64244120814048_1_alg».proof.Proof.Gen.KernelIdeal
import Idealize.ShloMosaic.Lib.ValueIdx
import Idealize.ShloMosaic.PureOps.Ideal.Laws

noncomputable section

namespace Cert.Layer

open Cert.KernelIdeal Cert.KernelIdeal.Gen Idealize.ShloMosaic Idealize.ShloMosaic.TcCoe Idealize.SL.Sem
open scoped BigOperators

variable {F : FTy → Type} [FloatOps F]

/-- Row `i 0` of the features at column `k`. -/
abbrev featIdx (i : S100000x128.Idx) (k : Fin 256) : S100000x256.Idx := fun a => match a with
  | ⟨0, _⟩ => ⟨(i 0).val, (i 0).isLt⟩
  | ⟨1, _⟩ => ⟨k.val, k.isLt⟩
/-- Row `i 1` of the weight at column `k`. -/
abbrev weightIdx (i : S100000x128.Idx) (k : Fin 256) : S128x256.Idx := fun a => match a with
  | ⟨0, _⟩ => ⟨(i 1).val, (i 1).isLt⟩
  | ⟨1, _⟩ => ⟨k.val, k.isLt⟩
/-- The channel of an output index, as an index of a per-channel vector. -/
abbrev chan (i : S100000x128.Idx) : S128.Idx := fun a => match a with
  | ⟨0, _⟩ => ⟨(i 1).val, (i 1).isLt⟩

/-- The linear map: `h[n, j] = ∑ₖ x[n, k] · W[j, k]`, on the extended reals. -/
def lin (x : (⟨S100000x256, .f32⟩ : BufTy).Contents (Elt Ideal)) (w : (⟨S128x256, .f32⟩ : BufTy).Contents (Elt Ideal)) :
    (⟨S100000x128, .f32⟩ : BufTy).Contents (Elt Ideal) :=
  fun i => ∑ k : Fin 256, x (featIdx i k) * w (weightIdx i k)

/-- A negative node number counts from the end, as an index column for a gather. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- One row of the edge list followed by the self-loops `0 … 99999`. -/
def withLoops (r : Fin 2 → Nat) (hs : S2x1600000.Slices r S1x1600000) (ei : (⟨S2x1600000, .i32⟩ : BufTy).Contents (Elt F)) :
    (⟨S1700000, .i32⟩ : BufTy).Contents (Elt F) :=
  concatenate S1700000 0 [⟨S1600000, shapeCast _ (extractStridedSlice S1x1600000 r ei hs) shapeCasts_S1x1600000_S1600000⟩,
    ⟨S100000, iotaInDim S100000 32 0⟩] concatenates_S1600000_S100000_S1700000_d0

/-- The normalised neighbourhood sum of the rows of `h` along the edges `ei` (sources in row 0, targets in row 1), self-loops
    added: the host operations both programs apply between the linear map and the activation. -/
def glue (h : (⟨S100000x128, .f32⟩ : BufTy).Contents (Elt F)) (ei : (⟨S2x1600000, .i32⟩ : BufTy).Contents (Elt F)) :
    (⟨S100000x128, .f32⟩ : BufTy).Contents (Elt F) :=
  let row : (⟨S1700000, .i32⟩ : BufTy).Contents (Elt F) := withLoops ![0, 0] slices_S2x1600000_S1x1600000_0_0 ei
  let col : (⟨S1700000, .i32⟩ : BufTy).Contents (Elt F) := withLoops ![1, 0] slices_S2x1600000_S1x1600000_1_0 ei
  let deg : (⟨S100000, .f32⟩ : BufTy).Contents (Elt F) :=
    Host.scatterAdd scatter_S100000_S1700000x1_S1700000_n_0_0_1 (broadcastInDim S100000 ![] bcast_S_S100000 (constant S_ .f32 0x00000000#32))
      (broadcastInDim S1700000x1 ![0] bcast_S1700000_S1700000x1_0 col) (broadcastInDim S1700000 ![] bcast_S_S1700000 (constant S_ .f32 0x3F800000#32))
  let dinv : (⟨S100000, .f32⟩ : BufTy).Contents (Elt F) :=
    select (cmpf .ogt deg (broadcastInDim S100000 ![] bcast_S_S100000 (constant S_ .f32 0x00000000#32))) (Host.rsqrt deg)
      (broadcastInDim S100000 ![] bcast_S_S100000 (constant S_ .f32 0x00000000#32))
  let norm : (⟨S1700000, .f32⟩ : BufTy).Contents (Elt F) :=
    mulf (Host.gather gather_S100000_S1700000x1_S1700000_n_0_n_n_0_1_1 dinv (wrapIdx row))
      (Host.gather gather_S100000_S1700000x1_S1700000_n_0_n_n_0_1_1 dinv (wrapIdx col))
  let msg : (⟨S1700000x128, .f32⟩ : BufTy).Contents (Elt F) :=
    mulf (Host.gather gather_S100000x128_S1700000x1_S1700000x128_1_0_n_n_0_1_1128 h (wrapIdx row))
      (broadcastInDim S1700000x128 ![0, 1] bcast_S1700000x1_S1700000x128_0_1 (broadcastInDim S1700000x1 ![0] bcast_S1700000_S1700000x1_0 norm))
  Host.scatterAdd scatter_S100000x128_S1700000x1_S1700000x128_1_0_0_1 (broadcastInDim S100000x128 ![] bcast_S_S100000x128 (constant S_ .f32 0x00000000#32))
    (broadcastInDim S1700000x1 ![0] bcast_S1700000_S1700000x1_0 col) msg

/-- Bias, then the channel-wise leaky rectifier: `z = s + b[j]`, the result `z` where `z > 0` and `a[j] · z` elsewhere. -/
def act (s : (⟨S100000x128, .f32⟩ : BufTy).Contents (Elt F)) (b a : (⟨S128, .f32⟩ : BufTy).Contents (Elt F)) :
    (⟨S100000x128, .f32⟩ : BufTy).Contents (Elt F) :=
  fun i => Scalar.select (FloatOps.cmpf .ogt (FloatOps.addf (s i) (b (chan i))) (FloatOps.ofBits .f32 0x00000000#32))
    (FloatOps.addf (s i) (b (chan i))) (FloatOps.mulf (a (chan i)) (FloatOps.addf (s i) (b (chan i))))

/-- The whole layer at the ideal instance. -/
def layer (x : (⟨S100000x256, .f32⟩ : BufTy).Contents (Elt Ideal)) (ei : (⟨S2x1600000, .i32⟩ : BufTy).Contents (Elt Ideal))
    (w : (⟨S128x256, .f32⟩ : BufTy).Contents (Elt Ideal)) (b a : (⟨S128, .f32⟩ : BufTy).Contents (Elt Ideal)) :
    (⟨S100000x128, .f32⟩ : BufTy).Contents (Elt Ideal) :=
  act (glue (F := Ideal) (lin x w) ei) b a

end Cert.Layer

end
-- ==== Proof.Payload.lean ====
/-
  The two kernel bodies' arithmetic read at one element.

  Body 0 multiplies a block of 5000 feature rows by the transposed weight on the matrix unit, into a zero accumulator; at the
  ideal instance the narrowing to bf16 is the identity and the product is the plain sum `∑ₖ x[p, k] · W[q, k]`.
  Body 1 adds the bias row to a block of 5000 aggregated rows and applies the leaky rectifier with the slope row.
-/
import proofs.«148932_j64244120814048_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx
open scoped BigOperators

/-! ## The contraction's operand indices: output `(p, q)` and contraction coordinate `k` read `x[p, k]` and `Wᵀ[k, q]` -/

theorem lhs_row (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_contr (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
theorem rhs_contr (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
theorem rhs_col (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Body 0's stored value at row `p`, channel `q`: the row of the feature block against the row of the weight. -/
theorem matmul_at (x0 : Vec Ideal S5000x256 .f32) (x1 : Vec Ideal S128x256 .f32) (p : Fin 5000) (q : Fin 128) :
    k0_pay1 (F := Ideal) x0 x1 (ix2 p q) = ∑ k : Fin 256, x0 (ix2 p k) * x1 (ix2 q k) := by
  unfold k0_pay1
  show FloatOps.matmul (F := Ideal) dot_S5000x256_S256x128_S5000x128_1_0_0_1_n_n none (truncf (F := Ideal) .bf16 x0 bitsLt_bf16_f32)
    (transpose S256x128 [1, 0] (truncf (F := Ideal) .bf16 x1 bitsLt_bf16_f32) transposes_S128x256_p1_0_S256x128) (constant (F := Ideal) S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_contr _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_contr _ _).trans hk
    | ⟨1, _⟩ => exact rhs_col _ _)
  rw [el, er, transpose_ix2_apply]
  rfl

variable {F : FTy → Type} [FloatOps F]

/-- Body 1's stored value at row `p`, channel `q`: `z = s + b`, kept where positive and scaled by the slope elsewhere. -/
theorem act_at (v0 : Vec F S5000x128 .f32) (v2 v6 : Vec F S1x128 .f32) (p : Fin 5000) (q : Fin 128) :
    k1_pay1 (F := F) v0 v2 v6 (ix2 p q)
      = Scalar.select (FloatOps.cmpf .ogt (FloatOps.addf (v0 (ix2 p q)) (v2 (ix2 (0 : Fin 1) q))) (FloatOps.ofBits .f32 0x00000000#32))
          (FloatOps.addf (v0 (ix2 p q)) (v2 (ix2 (0 : Fin 1) q)))
          (FloatOps.mulf (v6 (ix2 (0 : Fin 1) q)) (FloatOps.addf (v0 (ix2 p q)) (v2 (ix2 (0 : Fin 1) q)))) := by
  unfold k1_pay1
  rw [shapeCast_self, shapeCast_self, shapeCast_self]
  show Scalar.select (FloatOps.cmpf .ogt (FloatOps.addf (v0 (ix2 p q)) (broadcastTo S5000x128 v2 broadcasts_S1x128_S5000x128 (ix2 p q))) (FloatOps.ofBits .f32 0x00000000#32))
    (FloatOps.addf (v0 (ix2 p q)) (broadcastTo S5000x128 v2 broadcasts_S1x128_S5000x128 (ix2 p q)))
    (FloatOps.mulf (broadcastTo S5000x128 v6 broadcasts_S1x128_S5000x128 (ix2 p q)) (FloatOps.addf (v0 (ix2 p q)) (broadcastTo S5000x128 v2 broadcasts_S1x128_S5000x128 (ix2 p q)))) = _
  rw [broadcastTo_1b_ab_apply, broadcastTo_1b_ab_apply]

end Cert.KernelIdeal.Payload

end
-- ==== Proof.Region0.lean ====
/-
  Region 0, the linear map, as one array: the twenty row blocks of 5000 tile the 100000 rows, block `t` of the result is the
  matrix product of block `t` of the features with the whole transposed weight, so the array the region leaves is
  `h[n, j] = ∑ₖ x[n, k] · W[j, k]` of the arrays it found — whatever they were.
-/
import proofs.«148932_j64244120814048_1_alg».proof.Proof.Gen.KernelIdeal.Frame
import proofs.«148932_j64244120814048_1_alg».proof.Proof.Spec
import proofs.«148932_j64244120814048_1_alg».proof.Proof.Payload

set_option maxRecDepth 16384

noncomputable section

namespace Cert.KernelIdeal.Linear

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the feature block and the result block move together down the rows, the weight's one block
    stays, and nothing moves along the columns. -/
theorem blocks_at : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem block_of_row : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the linear map of the arrays the region found. -/
theorem flushed_lin (c : Dev nD) (t : Fin cfg0.N) :
    (dat0 V c).flushed 2 t = ((cfg0.win 2).blk t).view.read (Elt Ideal) (Cert.Layer.lin (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S128x256) origin]
  obtain ⟨e0, e1, e2, e3, e4, e5⟩ := blocks_at t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Layer.lin (V c main_arg0) (V c main_arg2) (((cfg0.win 2).blk t).view.emb (ix2 p q))
  refine (Payload.matmul_at (iblk0 V c 0 t) (iblk0 V c 1 t) p q).trans ?_
  unfold Cert.Layer.lin
  refine Finset.sum_congr rfl fun k _ => ?_
  have hx : iblk0 V c 0 t (ix2 p k) = V c main_arg0 (Cert.Layer.featIdx (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : iblk0 V c 1 t (ix2 q k) = V c main_arg2 (Cert.Layer.weightIdx (((cfg0.win 2).blk t).view.emb (ix2 p q)) k) := by
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 256 + 1 * k.val = k.val; omega
  rw [hx, hw]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The row blocks tile the array: row `n` lies in block `n / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array region 0 leaves is the linear map of the features and the weight it found. -/
theorem array_lin (c : Dev nD) : (dat0 V c).arrAt 2 cfg0.N = Cert.Layer.lin (V c main_arg0) (V c main_arg2) :=
  (dat0 V c).arrAt_eq_of_cover 2 _ (fun t _ => flushed_lin V c t) covered

end Cert.KernelIdeal.Linear

end
-- ==== Proof.Region1.lean ====
/-
  Region 1, bias and activation, as one array: the twenty row blocks tile the 100000 rows, block `t` of the result is the
  pointwise `z = s + b`, `z` if `z > 0` else `a · z`, of block `t` of the aggregated rows with the bias and slope rows, so
  the array the region leaves is the activation of the array of sums it found.
-/
import proofs.«148932_j64244120814048_1_alg».proof.Proof.Gen.KernelIdeal.Frame
import proofs.«148932_j64244120814048_1_alg».proof.Proof.Spec
import proofs.«148932_j64244120814048_1_alg».proof.Proof.Payload

set_option maxRecDepth 16384

noncomputable section

namespace Cert.KernelIdeal.Activation

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The index maps over the grid: the block of sums and the result block move together down the rows, the bias row and the
    slope row stay, and nothing moves along the columns. -/
theorem blocks_at : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some point's. -/
theorem block_of_row : ∀ q0 : Fin 20, ∃ t : Fin cfg1.N, win1_3.index t = ![q0.val, 0] :=
  (by decide +kernel : ∀ q0 : Fin 20, ∃ t : Fin grid1.N, win1_3.index t = ![q0.val, 0])

/-- What point `t` writes back is block `t` of the activation of the sums the region found, the bias and the slope being
    the vectors `b`, `a` whose one-row forms the region found. -/
theorem flushed_act (c : Dev nD) (b a : (⟨S128, .f32⟩ : BufTy).Contents (Elt F))
    (hb : V c main_v44 = shapeCast S1x128 b shapeCasts_S128_S1x128) (ha : V c main_v45 = shapeCast S1x128 a shapeCasts_S128_S1x128)
    (t : Fin cfg1.N) :
    (dat1 V c).flushed 3 t = ((cfg1.win 3).blk t).view.read (Elt F) (Cert.Layer.act (V c main_v43) b a) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin]
  obtain ⟨e0, e1, e2, e3, e4, e5, e6, e7⟩ := blocks_at t
  funext j
  obtain ⟨p, q, rfl⟩ : ∃ (p : Fin 5000) (q : Fin 128), j = ix2 p q := ⟨j 0, j 1, eq_ix2 j⟩
  show k1_pay1 (F := F) (iblk1 V c 0 t) (iblk1 V c 1 t) (iblk1 V c 2 t) (ix2 p q)
    = Cert.Layer.act (V c main_v43) b a (((cfg1.win 3).blk t).view.emb (ix2 p q))
  refine (Payload.act_at (iblk1 V c 0 t) (iblk1 V c 1 t) (iblk1 V c 2 t) p q).trans ?_
  have hs : iblk1 V c 0 t (ix2 p q) = V c main_v43 (((cfg1.win 3).blk t).view.emb (ix2 p q)) := by
    show V c main_v43 (((cfg1.win 0).blk t).view.emb (ix2 p q)) = _
    refine congrArg (V c main_v43) (funext fun ax => Fin.ext ?_)
    match ax with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have hbias : iblk1 V c 1 t (ix2 (0 : Fin 1) q) = b (Cert.Layer.chan (((cfg1.win 3).blk t).view.emb (ix2 p q))) := by
    show V c main_v44 (((cfg1.win 1).blk t).view.emb (ix2 (0 : Fin 1) q)) = _
    rw [hb]
    refine (congrArg (shapeCast S1x128 b shapeCasts_S128_S1x128) (show _ = ix2 (0 : Fin 1) q from funext fun ax => Fin.ext ?_)).trans
      ((shapeCast_a_1a_apply b shapeCasts_S128_S1x128 0 q).trans (congrArg b (funext fun ax => Fin.ext ?_)))
    · match ax with
      | ⟨0, _⟩ => show win1_1.index t (0 : Fin 2) * 1 + 1 * 0 = 0; omega
      | ⟨1, _⟩ => show win1_1.index t (1 : Fin 2) * 128 + 1 * q.val = q.val; omega
    · match ax with
      | ⟨0, _⟩ => show q.val = win1_3.index t (1 : Fin 2) * 128 + 1 * q.val; omega
  have hslope : iblk1 V c 2 t (ix2 (0 : Fin 1) q) = a (Cert.Layer.chan (((cfg1.win 3).blk t).view.emb (ix2 p q))) := by
    show V c main_v45 (((cfg1.win 2).blk t).view.emb (ix2 (0 : Fin 1) q)) = _
    rw [ha]
    refine (congrArg (shapeCast S1x128 a shapeCasts_S128_S1x128) (show _ = ix2 (0 : Fin 1) q from funext fun ax => Fin.ext ?_)).trans
      ((shapeCast_a_1a_apply a shapeCasts_S128_S1x128 0 q).trans (congrArg a (funext fun ax => Fin.ext ?_)))
    · match ax with
      | ⟨0, _⟩ => show win1_2.index t (0 : Fin 2) * 1 + 1 * 0 = 0; omega
      | ⟨1, _⟩ => show win1_2.index t (1 : Fin 2) * 128 + 1 * q.val = q.val; omega
    · match ax with
      | ⟨0, _⟩ => show q.val = win1_3.index t (1 : Fin 2) * 128 + 1 * q.val; omega
  rw [hs, hbias, hslope]
  rfl

/-- An index of the array is in point `t`'s block iff each coordinate is in the block's range on its axis. -/
theorem mem_block (t : Fin cfg1.N) (i : S100000x128.Idx) :
    i ∈ ((cfg1.win 3).blk t).view.set ↔ ∀ ax : Fin 2, win1_3.index t ax * S5000x128.size ax ≤ (i ax).val ∧ (i ax).val < win1_3.index t ax * S5000x128.size ax + S5000x128.size ax := by
  show i ∈ ((View.whole main_v46).slice (win1_3.rect t)).set ↔ _
  rw [View.set_slice_whole, Rect.mem_set_unit]
  exact Iff.rfl

/-- The row blocks tile the array: row `n` lies in block `n / 5000`. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_of_row ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro ax
  match ax with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array region 1 leaves is the activation of the sums it found. -/
theorem array_act (c : Dev nD) (b a : (⟨S128, .f32⟩ : BufTy).Contents (Elt F))
    (hb : V c main_v44 = shapeCast S1x128 b shapeCasts_S128_S1x128) (ha : V c main_v45 = shapeCast S1x128 a shapeCasts_S128_S1x128) :
    (dat1 V c).arrAt 3 cfg1.N = Cert.Layer.act (V c main_v43) b a :=
  (dat1 V c).arrAt_eq_of_cover 3 _ (fun t _ => flushed_act V c b a hb ha t) covered

end Cert.KernelIdeal.Activation

end
-- ==== Proof.KernelValue.lean ====
/-
  The idealized kernel program's result as one function of its arguments.

  Between the two regions the program applies, on the host, the degree normalisation and the gather / scatter-sum along the
  edges to the array region 0 left (`Cert.Layer.glue`), and recasts the bias and the slope as one-row arrays. So region 1
  finds the aggregated sums of the linear map, and leaves their activation: the whole layer of the launch arguments.
-/
import proofs.«148932_j64244120814048_1_alg».proof.Proof.Region0
import proofs.«148932_j64244120814048_1_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe
open Idealize.SL Idealize.SL.Sem Idealize.ShloMosaic.StableHlo

section AnyFloats

variable {F : FTy → Type} [FloatOps F]
variable (m : (ℓ : Loc nD τ sig) → Buf (Elt F) ℓ) (ρ : Dev nD → PrngReg)

/-- The array of sums region 1 finds: the host chain applied to what region 0 left in its result buffer and to the edge list
    as it stood then. -/
theorem sums_found (c : Dev nD) :
    V4 m ρ c main_v43 = Cert.Layer.glue (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  generalize W1 m ρ c = W
  simp only [hostOps1, hostOps1_1, hostOps1_2]
  after_results_simp
  rfl

/-- The bias row region 1 finds is the bias vector as it stood after region 0, recast. -/
theorem bias_found (c : Dev nD) :
    V4 m ρ c main_v44 = shapeCast S1x128 (W1 m ρ c (Proc.devRef .tc main_arg3)) shapeCasts_S128_S1x128 := by
  show StableHlo.after hostOps1_2 (StableHlo.after hostOps1_1 (StableHlo.after hostOps1 (W1 m ρ c))) (Proc.devRef .tc main_v44) = _
  generalize W1 m ρ c = W
  simp only [hostOps1, hostOps1_1, hostOps1_2]
  after_results_simp
  rfl

/-- The slope row region 1 finds is the slope vector as it stood after region 0, recast. -/
theorem slope_found (c : Dev nD) :
    V4 m ρ c main_v45 = shapeCast S1x128 (W1 m ρ c (Proc.devRef .tc main_arg4)) shapeCasts_S128_S1x128 := by
  show StableHlo.after hostOps1_2 (StableHlo.after hostOps1_1 (StableHlo.after hostOps1 (W1 m ρ c))) (Proc.devRef .tc main_v45) = _
  generalize W1 m ρ c = W
  simp only [hostOps1, hostOps1_1, hostOps1_2]
  after_results_simp
  rfl

/-- Region 0 writes only its result buffer: the edge list, the bias and the slope stand as launched. -/
theorem edges_kept (c : Dev nD) : W1 m ρ c (Proc.devRef .tc main_arg1) = m ((c : Thread nD τ).loc main_arg1) :=
  (W1_of_ne m ρ c main_arg1 (by decide)).trans rfl
theorem bias_kept (c : Dev nD) : W1 m ρ c (Proc.devRef .tc main_arg3) = m ((c : Thread nD τ).loc main_arg3) :=
  (W1_of_ne m ρ c main_arg3 (by decide)).trans rfl
theorem slope_kept (c : Dev nD) : W1 m ρ c (Proc.devRef .tc main_arg4) = m ((c : Thread nD τ).loc main_arg4) :=
  (W1_of_ne m ρ c main_arg4 (by decide)).trans rfl

end AnyFloats

variable (m : (ℓ : Loc nD τ sig) → Buf (Elt Ideal) ℓ) (ρ : Dev nD → PrngReg)

/-- Region 0's result buffer, after it, holds the linear map of the launch features and weight. -/
theorem linear_left (c : Dev nD) :
    W1 m ρ c (Proc.devRef .tc main_v0)
      = Cert.Layer.lin (m ((c : Thread nD τ).loc main_arg0)) (m ((c : Thread nD τ).loc main_arg2)) :=
  (W1_arr m ρ c 2).trans (Linear.array_lin (V0 m ρ) c)

/-- THE RESULT: after the run the result buffer holds the layer of the launch arguments. -/
theorem result_eq (c : Dev nD) :
    W5 m ρ c (Proc.devRef .tc main_v46)
      = Cert.Layer.layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W5_arr m ρ c 3).trans ?_
  refine (Activation.array_act (V4 m ρ) c (m ((c : Thread nD τ).loc main_arg3)) (m ((c : Thread nD τ).loc main_arg4))
    ((bias_found m ρ c).trans (by rw [bias_kept])) ((slope_found m ρ c).trans (by rw [slope_kept]))).trans ?_
  unfold Cert.Layer.layer
  rw [sums_found, linear_left, edges_kept]

end Cert.KernelIdeal.Whole

end
-- ==== Proof.RefValue.lean ====
/-
  The idealized reference's result as the same function of its arguments.

  The reference computes `x · Wᵀ` as one host contraction over the 256 features — the sum `∑ₖ x[n, k] · W[j, k]` —, applies
  the same host chain along the edges, adds the bias broadcast over the rows and selects `z` or `a · z` by the sign of `z`.
-/
import proofs.«148932_j64244120814048_1_alg».proof.Proof.RefRead
import proofs.«148932_j64244120814048_1_alg».proof.Proof.Spec

noncomputable section

namespace Cert.ReferenceIdeal.Whole

open Cert.ReferenceIdeal Cert.ReferenceIdeal.Gen Cert.ReferenceIdeal.ReadP Idealize.ShloMosaic Idealize.ShloMosaic.TcCoe Idealize.SL.Sem
open scoped BigOperators

/-- The host contraction is the linear map, index by index. -/
theorem lin_eq (x0 : (⟨S100000x256, .f32⟩ : BufTy).Contents (Elt Ideal)) (x2 : (⟨S128x256, .f32⟩ : BufTy).Contents (Elt Ideal)) :
    val_main_v1 (F := Ideal) x0 x2 = Cert.Layer.lin x0 x2 := by
  funext i
  rw [val_main_v1_apply]
  unfold Cert.Layer.lin
  refine Finset.sum_congr rfl fun k _ => ?_
  rw [val_main_v0_apply]
  have h1 : lidx_main_v1 i k = Cert.Layer.featIdx i k := funext fun a => by
    match a with
    | ⟨0, _⟩ => rfl
    | ⟨1, _⟩ => rfl
  have h2 : idx_main_v0 (ridx_main_v1 i k) = Cert.Layer.weightIdx i k := funext fun a => by
    match a with
    | ⟨0, _⟩ => rfl
    | ⟨1, _⟩ => rfl
  rw [h1, h2]

variable {F : FTy → Type} [FloatOps F]

/-- The reference's aggregation is the shared host chain, applied to its contraction and the edge list. -/
theorem sums_eq (x0 : (⟨S100000x256, .f32⟩ : BufTy).Contents (Elt F)) (x1 : (⟨S2x1600000, .i32⟩ : BufTy).Contents (Elt F))
    (x2 : (⟨S128x256, .f32⟩ : BufTy).Contents (Elt F)) :
    val_main_v44 (F := F) x0 x1 x2 = Cert.Layer.glue (val_main_v1 (F := F) x0 x2) x1 := rfl

/-- The reference's last stage is the activation of its aggregation. -/
theorem act_eq (x0 : (⟨S100000x256, .f32⟩ : BufTy).Contents (Elt F)) (x1 : (⟨S2x1600000, .i32⟩ : BufTy).Contents (Elt F))
    (x2 : (⟨S128x256, .f32⟩ : BufTy).Contents (Elt F)) (x3 x4 : (⟨S128, .f32⟩ : BufTy).Contents (Elt F)) :
    val_main_v53 (F := F) x0 x1 x2 x3 x4 = Cert.Layer.act (val_main_v44 (F := F) x0 x1 x2) x3 x4 := by
  funext i
  rw [val_main_v53_apply, val_main_v52_apply, val_main_v49_apply, val_main_v47_apply, val_main_v46_apply, val_main_v45_apply,
    val_main_v51_apply, val_main_v50_apply, val_main_v48_apply, val_main_cst_9_apply]
  rfl

/-- THE RESULT: the reference run's term is the layer of the launch arguments. -/
theorem result_eq (m : (ℓ : Loc nD τ sig) → Buf (Elt Ideal) ℓ) (c : Dev nD) :
    Cert.ReferenceIdeal.ValueP.res_main_v53 m c
      = Cert.Layer.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [val_main_v53_eq, act_eq, sums_eq, lin_eq]
  rfl

end Cert.ReferenceIdeal.Whole

end
-- ==== Proof.lean ====
/-
  One graph-convolution layer: `out = act (agg (x · Wᵀ)) `, where `agg` sums, at every node, the degree-normalised rows of
  its in-neighbours (self-loop included) and `act` adds the bias and applies the channel-wise leaky rectifier.

  The kernel program computes `x · Wᵀ` in a first region (twenty blocks of 5000 rows on the matrix unit), runs the
  aggregation on the host, and applies bias and rectifier in a second region (twenty blocks of 5000 rows); the reference does
  all of it on the host. On the extended reals the matrix unit's product into a zero accumulator and the host's contraction
  are the same sum over the 256 features, the narrowing of the operands to bf16 is the identity, the aggregation is the same
  chain of host operations on both sides, and the activation is the same pointwise function: the two results are one function
  of the arguments (`Cert.Layer.layer`). No finiteness of the inputs is used.

  The frames of the two kernel programs are the generated ones; the reference's frame is its run with the result dropped;
  nothing was rewritten by the idealization, so `preserves` is trivial.
-/
import proofs.«148932_j64244120814048_1_alg».proof.Defs
import proofs.«148932_j64244120814048_1_alg».proof.Proof.Gen.Kernel
import proofs.«148932_j64244120814048_1_alg».proof.Proof.Gen.Kernel.Frame
import proofs.«148932_j64244120814048_1_alg».proof.Proof.Gen.KernelIdeal
import proofs.«148932_j64244120814048_1_alg».proof.Proof.Gen.KernelIdeal.Frame
import proofs.«148932_j64244120814048_1_alg».proof.Proof.Gen.ReferenceIdeal
import proofs.«148932_j64244120814048_1_alg».proof.Proof.Gen.Pre_finite_inputs
import proofs.«148932_j64244120814048_1_alg».proof.Proof.KernelRun
import proofs.«148932_j64244120814048_1_alg».proof.Proof.KernelValue
import proofs.«148932_j64244120814048_1_alg».proof.Proof.RefRun
import proofs.«148932_j64244120814048_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the layer of the (agreeing) arguments. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Whole.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
